-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000x256 : Shape := ⟨2, ![800000, 256]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x256 : S_.BroadcastsInDim S800000x256 (![] : Fin 0 → Fin S800000x256.rank)
  reducesTo_S800000x256_S_d0_1 : S800000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S800000x256 .f32) (main_arg3 : FVec F S256x256 .f32) (main_arg4 : FVec F S256 .f32) (main_arg5 : FVec F S256x256 .f32) (main_arg6 : FVec F S256 .f32) (main_arg7 : FVec F S256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x256 .f32 := Host.absf main_arg2
  let main_cst_0 : FVec F S_ .f32 := constant S_ .f32 0x7F800000#32
  let main_v5 : FVec F S800000x256 .f32 := broadcastInDim S800000x256 ![] bcast_S_S800000x256 main_cst_0
  let main_v6 : IVec S800000x256 1 := cmpf .olt main_v4 main_v5
  let main_c_1 : IVec S_ 1 := constantI S_ 1 1#1
  let main_v7 : IVec S_ 1 := (fun x v => Host.reduce IntOp.andi x v reducesTo_S800000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S800000x256 : Shape := ⟨2, ![800000, 256]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x256 : Shape := ⟨2, ![1, 256]⟩
abbrev S2000x256 : Shape := ⟨2, ![2000, 256]⟩
abbrev S2000 : Shape := ⟨1, ![2000]⟩
abbrev S2000x1 : Shape := ⟨2, ![2000, 1]⟩

abbrev nBuf : Space → Nat
  | .hbm => 36
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S_, .f32⟩
  | .hbm, ⟨24, _⟩ => ⟨S800000x256, .f32⟩
  | .hbm, ⟨25, _⟩ => ⟨S800000x256, .f32⟩
  | .hbm, ⟨26, _⟩ => ⟨S_, .f32⟩
  | .hbm, ⟨27, _⟩ => ⟨S50000x256, .f32⟩
  | .hbm, ⟨28, _⟩ => ⟨S800000x1, .i32⟩
  | .hbm, ⟨29, _⟩ => ⟨S50000x256, .f32⟩
  | .hbm, ⟨30, _⟩ => ⟨S50000x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x256 : S_.BroadcastsInDim S800000x256 (![] : Fin 0 → Fin S800000x256.rank)
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S50000x256.size a
  hwx0_8 : ∀ i : grid0.Coords, EltTy.bits .f32 = 32 ∨ (Rect.block (s := S50000x256) S2000x256.size (cc0_transform_8 i) (hinb0_8 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000x256 : Shape := ⟨2, ![800000, 256]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x256 : Shape := ⟨2, ![1, 256]⟩
abbrev S50000 : Shape := ⟨1, ![50000]⟩
abbrev S50000x1 : Shape := ⟨2, ![50000, 1]⟩

abbrev nBuf : Space → Nat
  | .hbm => 75
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S_, .f32⟩
  | .hbm, ⟨24, _⟩ => ⟨S800000x256, .f32⟩
  | .hbm, ⟨25, _⟩ => ⟨S800000x256, .f32⟩
  | .hbm, ⟨26, _⟩ => ⟨S_, .f32⟩
  | .hbm, ⟨27, _⟩ => ⟨S50000x256, .f32⟩
  | .hbm, ⟨28, _⟩ => ⟨S800000x1, .i32⟩
  | .hbm, ⟨29, _⟩ => ⟨S50000x256, .f32⟩
  | .hbm, ⟨30, _⟩ => ⟨S50000x256, .f32⟩
  | .hbm, ⟨31, _⟩ => ⟨S50000x256, .f32⟩
  | .hbm, ⟨32, _⟩ => ⟨S1x256, .f32⟩
  | .hbm, ⟨33, _⟩ => ⟨S50000x256, .f32⟩
  | .hbm, ⟨34, _⟩ => ⟨S50000x256, .f32⟩
  | .hbm, ⟨35, _⟩ => ⟨S_, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000, .f32⟩
  | .hbm, ⟨48, _⟩ => ⟨S50000x1, .f32⟩
  | .hbm, ⟨49, _⟩ => ⟨S_, .f32⟩
  | .hbm, ⟨50, _⟩ => ⟨S50000x1, .f32⟩
  | .hbm, ⟨51, _⟩ => ⟨S50000x1, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S50000, .f32⟩
  | .hbm, ⟨57, _⟩ => ⟨S50000x1, .f32⟩
  | .hbm, ⟨58, _⟩ => ⟨S_, .f32⟩
  | .hbm, ⟨59, _⟩ => ⟨S50000x1, .f32⟩
  | .hbm, ⟨60, _⟩ => ⟨S50000x1, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x1, .f32⟩
  | .hbm, ⟨65, _⟩ => ⟨S50000x1, .f32⟩
  | .hbm, ⟨66, _⟩ => ⟨S50000x1, .f32⟩
  | .hbm, ⟨67, _⟩ => ⟨S50000x256, .f32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_cst : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call2_cst : Ref sig .tc := ⟨.hbm, 42, rfl⟩
abbrev main_call2_v0 : Ref sig .tc := ⟨.hbm, 43, rfl⟩
abbrev main_v26 : Ref sig .tc := ⟨.hbm, 44, rfl⟩
abbrev main_v27 : Ref sig .tc := ⟨.hbm, 45, rfl⟩
abbrev main_cst_1 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x256 : S_.BroadcastsInDim S800000x256 (![] : Fin 0 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibLin.lean ====
/-
  A linear layer as one function of whole arrays, on the extended reals: entry (p, q) of the result is the sum over
  k of A (p, k) · W (k, q), plus the bias b q, and — for the clamped form — the maximum of that and zero. Both a
  row-tiled matrix product with the bias added per tile and one whole matrix product followed by the bias are this
  function: a tile's rows are rows of the whole product, and the sum over k is the same sum.
-/
import Idealize.ShloMosaic.PureOps.Ideal
import Idealize.ShloMosaic.PureOps.Ideal.Laws
import Idealize.ShloMosaic.Lib.ValueIdx

noncomputable section

namespace LibLin

open Idealize.ShloMosaic Idealize.ShloMosaic.ValueIdx

/-- `A · W + b` entry by entry, clamped below at zero when `relu` is set. -/
def lin (relu : Bool) {M K N : ℕ}
    (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => if relu then max ((∑ k : Fin K, A (ix2 (i 0) k) * W (ix2 k (i 1))) + b (ix1 (i 1))) 0
    else (∑ k : Fin K, A (ix2 (i 0) k) * W (ix2 k (i 1))) + b (ix1 (i 1))

theorem lin_apply (relu : Bool) {M K N : ℕ}
    (A : (⟨2, ![M, K]⟩ : Shape).Idx → EReal) (W : (⟨2, ![K, N]⟩ : Shape).Idx → EReal)
    (b : (⟨1, ![N]⟩ : Shape).Idx → EReal) (p : Fin M) (q : Fin N) :
    lin relu A W b (ix2 p q) = if relu then max ((∑ k : Fin K, A (ix2 p k) * W (ix2 k q)) + b (ix1 q)) 0
      else (∑ k : Fin K, A (ix2 p k) * W (ix2 k q)) + b (ix1 q) := rfl

end LibLin

end
-- ==== Proof.MlpNorm.lean ====
/-
  The layer the two programs compute, written once, row by row, on the extended reals.

  For node features x and aggregated features z (both M × 256), weights W1, W2 (256 × 256) and biases b1, b2:
    r = x + max(max(z · W1 + b1, 0) · W2 + b2, 0),
  and every row of r is then normalised: with mean μ = (Σ_k r_k) / c and variance v = (Σ_k (r_k − μ)²) / c over the row's
  256 entries, the result is (r − μ) · (v + ε)^(−1/2) · γ + β.  The divisor c and the offset ε are kept as parameters
  (both programs carry the same two float words for them; they are never evaluated).

  Every entry of the result depends on x and z only through ONE row of each.  So a tile holding some rows of x and z
  yields exactly the matching rows of the whole result: `layer_row`.  Nothing here needs finiteness: the two programs
  apply the same operations in the same order, and no algebraic law is used.
-/
import Idealize.ShloMosaic.PureOps.Ideal
import Idealize.ShloMosaic.PureOps.Ideal.Laws
import Idealize.ShloMosaic.Lib.ValueIdx
import proofs.«134560_j12180527252066_1_alg».proof.Proof.LibLin

noncomputable section

namespace MlpNorm

open Idealize.ShloMosaic Idealize.ShloMosaic.ValueIdx LibLin

/-- An a × b array of extended reals, and a length-a vector. -/
abbrev Mat (a b : ℕ) : Type := (⟨2, ![a, b]⟩ : Shape).Idx → EReal
abbrev Vct (a : ℕ) : Type := (⟨1, ![a]⟩ : Shape).Idx → EReal

/-- The divisor 256 and the offset ε, as the two float words both programs carry (the words are never evaluated). -/
abbrev c256 : EReal := Ideal.ofBits .f32 0x43800000#32
abbrev eps : EReal := Ideal.ofBits .f32 0x3727C5AC#32

/-- The one row of a 1 × a array, as a vector. -/
def rowOf {a : ℕ} (v : Mat 1 a) : Vct a := fun j => v (ix2 (0 : Fin 1) (j 0))

theorem rowOf_apply {a : ℕ} (v : Mat 1 a) (q : Fin a) : rowOf v (ix1 q) = v (ix2 (0 : Fin 1) q) := rfl

/-- The residual branch: x plus the two clamped linear layers applied to z. -/
def resid {M : ℕ} (x z : Mat M 256) (W1 : Mat 256 256) (b1 : Vct 256) (W2 : Mat 256 256) (b2 : Vct 256) : Mat M 256 :=
  fun i => x i + lin true (lin true z W1 b1) W2 b2 i

/-- A row's mean: its sum divided by c. -/
def rowMean {M : ℕ} (c : EReal) (r : Mat M 256) (p : Fin M) : EReal :=
  Ideal.div (∑ k : Fin 256, r (ix2 p k)) c

/-- A row's variance: the sum of its squared deviations from the mean, divided by c. -/
def rowVar {M : ℕ} (c : EReal) (r : Mat M 256) (p : Fin M) : EReal :=
  Ideal.div (∑ k : Fin 256, (r (ix2 p k) - rowMean c r p) * (r (ix2 p k) - rowMean c r p)) c

/-- Row normalisation with scale g and shift b. -/
def norm {M : ℕ} (c eps : EReal) (r : Mat M 256) (g b : Vct 256) : Mat M 256 := fun i =>
  (r i - rowMean c r (i 0)) * Ideal.rsqrt (rowVar c r (i 0) + eps) * g (ix1 (i 1)) + b (ix1 (i 1))

theorem norm_apply {M : ℕ} (c eps : EReal) (r : Mat M 256) (g b : Vct 256) (p : Fin M) (q : Fin 256) :
    norm c eps r g b (ix2 p q)
      = (r (ix2 p q) - rowMean c r p) * Ideal.rsqrt (rowVar c r p + eps) * g (ix1 q) + b (ix1 q) := rfl

/-- The whole layer. -/
def layer {M : ℕ} (c eps : EReal) (x z : Mat M 256) (W1 : Mat 256 256) (b1 : Vct 256) (W2 : Mat 256 256) (b2 g b : Vct 256) :
    Mat M 256 :=
  norm c eps (resid x z W1 b1 W2 b2) g b

/-! ## Each row of the result depends on one row of the inputs -/

/-- A linear layer's row p depends on the operand's row p only. -/
theorem lin_row {M M' K N : ℕ} (relu : Bool) (A : Mat M K) (A' : Mat M' K) (W : Mat K N) (b : Vct N) (p : Fin M) (p' : Fin M')
    (h : ∀ k : Fin K, A (ix2 p k) = A' (ix2 p' k)) (q : Fin N) :
    lin relu A W b (ix2 p q) = lin relu A' W b (ix2 p' q) := by
  rw [lin_apply, lin_apply]
  simp only [h]

theorem resid_row {M M' : ℕ} (x z : Mat M 256) (x' z' : Mat M' 256) (W1 : Mat 256 256) (b1 : Vct 256) (W2 : Mat 256 256)
    (b2 : Vct 256) (p : Fin M) (p' : Fin M') (hx : ∀ k : Fin 256, x (ix2 p k) = x' (ix2 p' k))
    (hz : ∀ k : Fin 256, z (ix2 p k) = z' (ix2 p' k)) (q : Fin 256) :
    resid x z W1 b1 W2 b2 (ix2 p q) = resid x' z' W1 b1 W2 b2 (ix2 p' q) := by
  show x (ix2 p q) + lin true (lin true z W1 b1) W2 b2 (ix2 p q) = x' (ix2 p' q) + lin true (lin true z' W1 b1) W2 b2 (ix2 p' q)
  rw [hx q, lin_row true (lin true z W1 b1) (lin true z' W1 b1) W2 b2 p p' (fun k => lin_row true z z' W1 b1 p p' hz k) q]

theorem norm_row {M M' : ℕ} (c eps : EReal) (r : Mat M 256) (r' : Mat M' 256) (g b : Vct 256) (p : Fin M) (p' : Fin M')
    (h : ∀ k : Fin 256, r (ix2 p k) = r' (ix2 p' k)) (q : Fin 256) :
    norm c eps r g b (ix2 p q) = norm c eps r' g b (ix2 p' q) := by
  have hm : rowMean c r p = rowMean c r' p' := by
    unfold rowMean
    simp only [h]
  have hv : rowVar c r p = rowVar c r' p' := by
    unfold rowVar
    simp only [h, hm]
  rw [norm_apply, norm_apply, h q, hm, hv]

/-- Row p of the layer over (x, z) is row p' of the layer over (x', z') when the two pairs agree on those rows. -/
theorem layer_row {M M' : ℕ} (c eps : EReal) (x z : Mat M 256) (x' z' : Mat M' 256) (W1 : Mat 256 256) (b1 : Vct 256)
    (W2 : Mat 256 256) (b2 g b : Vct 256) (p : Fin M) (p' : Fin M') (hx : ∀ k : Fin 256, x (ix2 p k) = x' (ix2 p' k))
    (hz : ∀ k : Fin 256, z (ix2 p k) = z' (ix2 p' k)) (q : Fin 256) :
    layer c eps x z W1 b1 W2 b2 g b (ix2 p q) = layer c eps x' z' W1 b1 W2 b2 g b (ix2 p' q) :=
  norm_row c eps _ _ g b p p' (fun k => resid_row x z x' z' W1 b1 W2 b2 p p' hx hz k) q

end MlpNorm

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibLayoutCols.lean ====
/-
  General facts about layout operations read at an index, independent of any program, in the style of the library's
  own small-shape lemmas: the "keepdims" forms a row-wise reduction meets (a vector of row results made a column, the
  column copied across the row), a middle or leading unit axis added and then copied, a vector copied over two leading
  axes, and the cast that merges the two leading axes of a rank-3 array into one row axis. Each says which single entry
  of the operand an entry of the result is.
-/
import Idealize.ShloMosaic.Lib.Pipeline.Value
import Idealize.ShloMosaic.Lib.ValueIdx

noncomputable section

namespace Idealize.ShloMosaic.LibLayoutCols

open Idealize.ShloMosaic Idealize.ShloMosaic.ValueIdx

variable {α : Type}

/-! ## A vector as a column, and a column across its rows -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector of per-row values made a column and copied across the row reads, at `(p, c)`, the value of row `p`. -/
theorem broadcastTo_shapeCast_col_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A unit axis added in the middle or in front of a matrix, then copied -/

/-- An `[a, c]` array cast to `[a, 1, c]` reads, at `(r, u, j)`, the operand at `(r, j)`. -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (j : Fin c) :
    shapeCast ⟨3, ![a, 1, c]⟩ x h (ix3 r u j) = x (ix2 r j) :=
  shapeCast_apply x h _ _ (by
    have hu : u.val = 0 := by omega
    rw [Shape.rowMajor_val_three, Shape.rowMajor_val_two]
    show r.val * c + j.val = (r.val * 1 + u.val) * c + j.val
    rw [hu, Nat.mul_one, Nat.add_zero])

/-- An `[a, 1, c]` array broadcast to `[a, b, c]` reads, at `(r, u, j)`, the operand at `(r, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (u : Fin b) (j : Fin c) :
    broadcastTo ⟨3, ![a, b, c]⟩ v h (ix3 r u j) = v (ix3 r (0 : Fin 1) j) := by
  refine broadcastTo_apply v h (ix3 r u j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(r, u, j)`, the operand at `(0, u, j)`. -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (u : Fin b) (j : Fin c) :
    broadcastTo ⟨3, ![a, b, c]⟩ v h (ix3 r u j) = v (ix3 (0 : Fin 1) u j) := by
  refine broadcastTo_apply v h (ix3 r u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

/-! ## A vector copied over two leading axes -/

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * c + j.val
    simp only [hu, hw, Nat.zero_mul, Nat.add_zero, Nat.zero_add])

/-- A `[1, 1, c]` array broadcast to `[a, b, c]` reads, at `(r, u, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (u : Fin b) (j : Fin c) :
    broadcastTo ⟨3, ![a, b, c]⟩ v h (ix3 r u j) = v (ix3 (0 : Fin 1) (0 : Fin 1) j) := by
  refine broadcastTo_apply v h (ix3 r u j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-! ## The two leading axes of a rank-3 array merged into one row axis -/

/-- An `[a, b, c]` array cast to `[n, c]` (so `n = a·b`) reads, at row `p = r·b + u` and column `j`, the operand at
    `(r, u, j)`: the row-major position is the same. -/
theorem shapeCast_abc_nc_apply {a b c n : ℕ} (x : (⟨3, ![a, b, c]⟩ : Shape).Idx → α)
    (h : (⟨3, ![a, b, c]⟩ : Shape).ShapeCasts ⟨2, ![n, c]⟩) (r : Fin a) (u : Fin b) (p : Fin n)
    (hp : p.val = r.val * b + u.val) (j : Fin c) :
    shapeCast ⟨2, ![n, c]⟩ x h (ix2 p j) = x (ix3 r u j) :=
  shapeCast_apply x h _ _ (by
    rw [Shape.rowMajor_val_three, Shape.rowMajor_val_two]
    show (r.val * b + u.val) * c + j.val = p.val * c + j.val
    rw [hp])

end Idealize.ShloMosaic.LibLayoutCols

end
-- ==== Proof.Tile.lean ====
/-
  What the kernel body stores for one tile, read at an entry, on the extended reals.

  The body holds 2000 rows of x and of z, the two weight matrices, and the four row vectors (two biases, scale, shift) as
  1 × 256 arrays.  Its matrix products accumulate into zero, so each is the plain sum over the contracted coordinate; the
  change of float format before each product is the identity here; the bias is one row copied down the tile; the row sums
  are lane reductions kept as a column and copied back across the row.  Read entry by entry this is the layer of
  `MlpNorm` over the tile's rows.
-/
import proofs.«134560_j12180527252066_1_alg».proof.Proof.Gen.KernelIdeal.Skeleton
import proofs.«134560_j12180527252066_1_alg».proof.Proof.MlpNorm
import proofs.«134560_j12180527252066_1_alg».proof.Proof.LibPlainMatmul
import proofs.«134560_j12180527252066_1_alg».proof.Proof.LibLayoutCols
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx
open Idealize.ShloMosaic.LibPlainMatmul Idealize.ShloMosaic.LibLayoutCols LibLin MlpNorm

/-! ## One clamped linear step -/

/-- A product into the zero accumulator, plus a bias row copied down the tile, clamped below at zero: as the body spells it. -/
def kLin (A : FVec Ideal S2000x256 .bf16) (W : FVec Ideal S256x256 .bf16) (bias : Vec Ideal S1x256 .f32) : FVec Ideal S2000x256 .f32 :=
  maximumf (addf (matmul dot_S2000x256_S256x256_S2000x256_1_0_0_1_n_n none A W (constant S2000x256 .f32 0x00000000#32))
      (broadcastTo S2000x256 (shapeCast S1x256 bias shapeCasts_S1x256_S1x256) broadcasts_S1x256_S2000x256))
    (broadcast S2000x256 (Scalar.ofBits .f32 0x00000000#32))

theorem kLin_apply (A : FVec Ideal S2000x256 .bf16) (W : FVec Ideal S256x256 .bf16) (bias : Vec Ideal S1x256 .f32)
    (p : Fin 2000) (q : Fin 256) : kLin A W bias (ix2 p q) = lin true A W (rowOf bias) (ix2 p q) := by
  rw [lin_apply, if_pos rfl]
  show max (matmul (DotDims.plain 2000 256 256) none A W (constant (⟨2, ![2000, 256]⟩ : Shape) .f32 0x00000000#32) (ix2 p q)
      + broadcastTo S2000x256 (shapeCast S1x256 bias shapeCasts_S1x256_S1x256) broadcasts_S1x256_S2000x256 (ix2 p q))
    (Ideal.ofBits .f32 0x00000000#32) = _
  rw [matmul_plain_zero_apply, shapeCast_self, broadcastTo_1b_ab_apply, Ideal.ofBits_zero_f32]
  rfl

theorem kLin_eq (A : FVec Ideal S2000x256 .bf16) (W : FVec Ideal S256x256 .bf16) (bias : Vec Ideal S1x256 .f32) :
    (kLin A W bias : Mat 2000 256) = lin true A W (rowOf bias) := by
  funext j
  rw [eq_ix2 j]
  exact kLin_apply A W bias (j 0) (j 1)

/-! ## A row's mean, and the row centred on it -/

/-- A lane sum over a row is the sum of the row's 256 entries. -/
theorem laneSum_apply (v : FVec Ideal S2000x256 .f32) (p : Fin 2000) :
    multiReduction .add [1] S2000 v 0x00000000#32 reduces_S2000x256_S2000 (.inl rfl) rfl (ix1 p) = ∑ k : Fin 256, v (ix2 p k) := by
  refine (Ideal.multiReduction_add_single v 0x00000000#32 reduces_S2000x256_S2000 (.inl rfl) rfl (ix1 p)).trans ?_
  refine Finset.sum_congr rfl fun k _ => congrArg v ?_
  funext a
  apply Fin.ext
  match a with
  | ⟨0, _⟩ => rfl
  | ⟨1, _⟩ => rfl

/-- The row sums kept as a column and divided by 256: as the body spells it. -/
def kMean (r : FVec Ideal S2000x256 .f32) : FVec Ideal S2000x1 .f32 :=
  divf (shapeCast S2000x1 (multiReduction .add [1] S2000 r 0x00000000#32 reduces_S2000x256_S2000 (.inl rfl) rfl) shapeCasts_S2000_S2000x1)
    (broadcast S2000x1 (Scalar.ofBits .f32 0x43800000#32))

theorem kMean_apply (r : FVec Ideal S2000x256 .f32) (p : Fin 2000) (u : Fin 1) : kMean r (ix2 p u) = rowMean c256 r p := by
  show Ideal.div (shapeCast S2000x1 (multiReduction .add [1] S2000 r 0x00000000#32 reduces_S2000x256_S2000 (.inl rfl) rfl)
    shapeCasts_S2000_S2000x1 (ix2 p u)) c256 = _
  rw [shapeCast_a_a1_apply, laneSum_apply]
  rfl

/-- The tile minus its row means copied across each row. -/
def kCentred (r : FVec Ideal S2000x256 .f32) : FVec Ideal S2000x256 .f32 :=
  subf r (broadcastTo S2000x256 (kMean r) broadcasts_S2000x1_S2000x256)

theorem kCentred_apply (r : FVec Ideal S2000x256 .f32) (p : Fin 2000) (q : Fin 256) :
    kCentred r (ix2 p q) = r (ix2 p q) - rowMean c256 r p := by
  show r (ix2 p q) - broadcastTo S2000x256 (kMean r) broadcasts_S2000x1_S2000x256 (ix2 p q) = _
  rw [broadcastTo_a1_ab_apply, kMean_apply]

/-- The mean of the squared centred row is the row's variance. -/
theorem kVar_apply (r : FVec Ideal S2000x256 .f32) (p : Fin 2000) (u : Fin 1) :
    kMean (mulf (kCentred r) (kCentred r)) (ix2 p u) = rowVar c256 r p := by
  rw [kMean_apply]
  show Ideal.div (∑ k : Fin 256, kCentred r (ix2 p k) * kCentred r (ix2 p k)) c256 = _
  simp only [kCentred_apply]
  rfl

/-! ## The body's named values -/

variable (P0 P1 : Vec Ideal S2000x256 .f32) (P2 : Vec Ideal S256x256 .f32) (P3 : Vec Ideal S1x256 .f32)
  (P4 : Vec Ideal S256x256 .f32) (P5 P6 P7 : Vec Ideal S1x256 .f32)

/-- x plus the two clamped steps applied to z. -/
theorem pay2_eq : k0_pay2 P0 P1 P2 P3 P4 P5
    = addf P0 (kLin (truncf .bf16 (kLin (truncf .bf16 (shapeCast S2000x256 P1 shapeCasts_S2000x256_S2000x256) bitsLt_bf16_f32)
        (truncf .bf16 P2 bitsLt_bf16_f32) P3) bitsLt_bf16_f32) (truncf .bf16 P4 bitsLt_bf16_f32) P5) := rfl

theorem pay2_resid : (k0_pay2 P0 P1 P2 P3 P4 P5 : Mat 2000 256) = resid P0 P1 P2 (rowOf P3) P4 (rowOf P5) := by
  rw [pay2_eq, kLin_eq, kLin_eq, shapeCast_self]
  rfl

theorem pay3_eq : k0_pay3 P0 P1 P2 P3 P4 P5 = kMean (k0_pay2 P0 P1 P2 P3 P4 P5) := rfl

theorem pay4_eq : k0_pay4 P0 P1 P2 P3 P4 P5
    = kMean (mulf (kCentred (k0_pay2 P0 P1 P2 P3 P4 P5)) (kCentred (k0_pay2 P0 P1 P2 P3 P4 P5))) := rfl

theorem pay5_eq : k0_pay5 P0 P1 P2 P3 P4 P5 = kCentred (k0_pay2 P0 P1 P2 P3 P4 P5) := rfl

/-- The stored value from its three named parts and the scale and shift rows. -/
theorem pay1_apply (v34 : FVec Ideal S2000x1 .f32) (v36 : FVec Ideal S2000x256 .f32) (v37 : FVec Ideal S2000x1 .f32)
    (v42 v46 : Vec Ideal S1x256 .f32) (p : Fin 2000) (q : Fin 256) :
    k0_pay1 v34 v36 v37 v42 v46 (ix2 p q)
      = v36 (ix2 p q) * Ideal.rsqrt (v34 (ix2 p (0 : Fin 1)) + v37 (ix2 p (0 : Fin 1))) * v42 (ix2 (0 : Fin 1) q) + v46 (ix2 (0 : Fin 1) q) := by
  unfold k0_pay1
  show v36 (ix2 p q) * broadcastTo S2000x256 (rsqrt (addf v34 v37)) broadcasts_S2000x1_S2000x256 (ix2 p q)
      * broadcastTo S2000x256 (shapeCast S1x256 v42 shapeCasts_S1x256_S1x256) broadcasts_S1x256_S2000x256 (ix2 p q)
      + broadcastTo S2000x256 (shapeCast S1x256 v46 shapeCasts_S1x256_S1x256) broadcasts_S1x256_S2000x256 (ix2 p q) = _
  rw [broadcastTo_a1_ab_apply, broadcastTo_1b_ab_apply, broadcastTo_1b_ab_apply, shapeCast_self, shapeCast_self]
  rfl

/-- THE TILE: what the body stores, at row p and column q, is the layer over the tile's rows. -/
theorem stored_apply (p : Fin 2000) (q : Fin 256) :
    k0_pay1 (k0_pay4 P0 P1 P2 P3 P4 P5) (k0_pay5 P0 P1 P2 P3 P4 P5) (k0_pay6 (F := Ideal)) P6 P7 (ix2 p q)
      = layer c256 eps P0 P1 P2 (rowOf P3) P4 (rowOf P5) (rowOf P6) (rowOf P7) (ix2 p q) := by
  rw [pay1_apply, pay4_eq, pay5_eq, kVar_apply, kCentred_apply, pay2_resid]
  rfl

end Cert.KernelIdeal.Tile

end
-- ==== Proof.Staged.lean ====
/-
  What the pallas_call finds in the arrays the host wrote before it, on the extended reals.

  The aggregated features z (the array the second window stages) are produced by the same gather, clamp and scatter-add
  operations, on the same arguments, in both programs: here that array is identified with the reference's stage of the same
  name, as one term that is never opened.  The bias, scale and shift rows the call stages are the length-256 arguments
  reshaped to 1 × 256, so their one row is the argument itself.
-/
import proofs.«134560_j12180527252066_1_alg».proof.Proof.Gen.KernelIdeal.Frame
import proofs.«134560_j12180527252066_1_alg».proof.Proof.Gen.ReferenceIdeal.Read
import proofs.«134560_j12180527252066_1_alg».proof.Proof.MlpNorm
import Idealize.ShloMosaic.Lib.StableHlo.Run
import Idealize.ShloMosaic.Lib.ValueLayout

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx MlpNorm

variable (m : (ℓ : Loc nD τ sig) → Buf (Elt Ideal) ℓ)

set_option maxHeartbeats 4000000 in
/-- The aggregated features as the call finds them: the reference's stage of the same arguments. -/
theorem z_eq (c : Dev nD) : (V m c main_v16 : S50000x256.Idx → EReal)
    = Cert.ReferenceIdeal.Read.val_main_v16 (F := Ideal) (m ((c : Thread nD τ).loc main_arg0)) (m ((c : Thread nD τ).loc main_arg1))
        (m ((c : Thread nD τ).loc main_arg2)) := by
  dsimp only [V]
  simp only [hostOps0, hostOps0_1, hostOps0_2, List.flatten_cons, List.flatten_nil, List.append_nil, List.cons_append,
    List.nil_append]
  after_results_simp <;> rfl

/-- A length-256 argument reshaped to 1 × 256 has the argument as its one row. -/
theorem rowOf_reshape (x : S256.Idx → EReal) : rowOf (shapeCast S1x256 x shapeCasts_S256_S1x256 : Mat 1 256) = x := by
  funext j
  obtain ⟨q, rfl⟩ : ∃ q : Fin 256, j = ix1 q := ⟨j 0, eq_ix1 j⟩
  rw [rowOf_apply, shapeCast_a_1a_apply]

theorem b1_eq (c : Dev nD) : (V m c main_v17 : S1x256.Idx → EReal)
    = shapeCast S1x256 (m ((c : Thread nD τ).loc main_arg4) : S256.Idx → EReal) shapeCasts_S256_S1x256 := by
  dsimp only [V]
  simp only [hostOps0, hostOps0_1, hostOps0_2, List.flatten_cons, List.flatten_nil, List.append_nil, List.cons_append,
    List.nil_append]
  after_results_simp <;> rfl

theorem b2_eq (c : Dev nD) : (V m c main_v18 : S1x256.Idx → EReal)
    = shapeCast S1x256 (m ((c : Thread nD τ).loc main_arg6) : S256.Idx → EReal) shapeCasts_S256_S1x256 := by
  dsimp only [V]
  simp only [hostOps0, hostOps0_1, hostOps0_2, List.flatten_cons, List.flatten_nil, List.append_nil, List.cons_append,
    List.nil_append]
  after_results_simp <;> rfl

theorem gamma_eq (c : Dev nD) : (V m c main_v19 : S1x256.Idx → EReal)
    = shapeCast S1x256 (m ((c : Thread nD τ).loc main_arg7) : S256.Idx → EReal) shapeCasts_S256_S1x256 := by
  dsimp only [V]
  simp only [hostOps0, hostOps0_1, hostOps0_2, List.flatten_cons, List.flatten_nil, List.append_nil, List.cons_append,
    List.nil_append]
  after_results_simp <;> rfl

theorem beta_eq (c : Dev nD) : (V m c main_v20 : S1x256.Idx → EReal)
    = shapeCast S1x256 (m ((c : Thread nD τ).loc main_arg8) : S256.Idx → EReal) shapeCasts_S256_S1x256 := by
  dsimp only [V]
  simp only [hostOps0, hostOps0_1, hostOps0_2, List.flatten_cons, List.flatten_nil, List.append_nil, List.cons_append,
    List.nil_append]
  after_results_simp <;> rfl

end Cert.KernelIdeal.Staged

end
-- ==== Proof.Blocks.lean ====
/-
  From tiles to the whole array, on the extended reals.

  The grid has 25 points; point t stages rows 2000·t … 2000·t + 1999 of x and of z, all of W1 and W2, and the four 1 × 256
  rows, and writes back rows 2000·t … 2000·t + 1999 of the result.  By `Tile.stored_apply` what it writes is the layer over
  the tile's rows, and a row of the layer depends on that row of x and z only (`MlpNorm.layer_row`), so it is block t of the
  layer over all 50000 rows.  The 25 row blocks cover the array, so after the run the result array IS that layer.
-/
import proofs.«134560_j12180527252066_1_alg».proof.Proof.Gen.KernelIdeal.Value
import proofs.«134560_j12180527252066_1_alg».proof.Proof.Tile
import proofs.«134560_j12180527252066_1_alg».proof.Proof.Staged
import Idealize.ShloMosaic.Lib.Pipeline.Value

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx MlpNorm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer over all 50000 rows, of the arguments and of the aggregated features as the call finds them. -/
abbrev result (c : Dev nD) : S50000x256.Idx → EReal :=
  layer c256 eps (m ((c : Thread nD τ).loc main_arg0)) (V m c main_v16) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))

/-- The printed index maps over the grid: the three row windows sit at block row t, every other window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## Each window's block, read off its array -/

/-- Row p of the x tile at point t is row 2000·t + p of x. -/
theorem xblk_apply (c : Dev nD) (t : Fin cfg0.N) (p : Fin 2000) (k : Fin 256) (p' : Fin 50000) (hp : p'.val = t.val * 2000 + p.val) :
    (iblk m c 0 t : Vec Ideal S2000x256 .f32) (ix2 p k)
      = (m ((c : Thread nD τ).loc main_arg0) : S50000x256.Idx → EReal) (ix2 p' k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t 0 * 2000 + 1 * p.val = p'.val; rw [e0, hp]; omega
  | ⟨1, _⟩ => show win0_0.index t 1 * 256 + 1 * k.val = k.val; rw [e1]; omega

/-- Row p of the z tile at point t is row 2000·t + p of z. -/
theorem zblk_apply (c : Dev nD) (t : Fin cfg0.N) (p : Fin 2000) (k : Fin 256) (p' : Fin 50000) (hp : p'.val = t.val * 2000 + p.val) :
    (iblk m c 1 t : Vec Ideal S2000x256 .f32) (ix2 p k) = (V m c main_v16 : S50000x256.Idx → EReal) (ix2 p' k) := by
  obtain ⟨-, -, e0, e1, -⟩ := idx_facts t
  unfold iblk
  rw [View.read_apply]
  show V m c main_v16 _ = _
  congr 1
  funext a
  apply Fin.ext
  match a with
  | ⟨0, _⟩ => show win0_1.index t 0 * 2000 + 1 * p.val = p'.val; rw [e0, hp]; omega
  | ⟨1, _⟩ => show win0_1.index t 1 * 256 + 1 * k.val = k.val; rw [e1]; omega

/-- The W1 window's one block is all of W1. -/
theorem w1blk_eq (c : Dev nD) (t : Fin cfg0.N) :
    (iblk m c 2 t : Vec Ideal S256x256 .f32) = (m ((c : Thread nD τ).loc main_arg3) : S256x256.Idx → EReal) := by
  obtain ⟨-, -, -, -, -, -, e0, e1, -⟩ := idx_facts t
  funext y
  unfold iblk
  rw [View.read_apply]
  show V m c main_arg3 _ = _
  rw [V_main_arg3]
  congr 1
  funext a
  apply Fin.ext
  match a with
  | ⟨0, _⟩ => show win0_2.index t 0 * 256 + 1 * (y 0).val = (y 0).val; rw [e0]; omega
  | ⟨1, _⟩ => show win0_2.index t 1 * 256 + 1 * (y 1).val = (y 1).val; rw [e1]; omega

/-- The W2 window's one block is all of W2. -/
theorem w2blk_eq (c : Dev nD) (t : Fin cfg0.N) :
    (iblk m c 4 t : Vec Ideal S256x256 .f32) = (m ((c : Thread nD τ).loc main_arg5) : S256x256.Idx → EReal) := by
  obtain ⟨-, -, -, -, -, -, -, -, -, -, e0, e1, -⟩ := idx_facts t
  funext y
  unfold iblk
  rw [View.read_apply]
  show V m c main_arg5 _ = _
  rw [V_main_arg5]
  congr 1
  funext a
  apply Fin.ext
  match a with
  | ⟨0, _⟩ => show win0_4.index t 0 * 256 + 1 * (y 0).val = (y 0).val; rw [e0]; omega
  | ⟨1, _⟩ => show win0_4.index t 1 * 256 + 1 * (y 1).val = (y 1).val; rw [e1]; omega

/-- The first bias window's one block is the 1 × 256 array the host made of b1, whose row is b1. -/
theorem b1blk_row (c : Dev nD) (t : Fin cfg0.N) :
    rowOf (iblk m c 3 t : Vec Ideal S1x256 .f32) = (m ((c : Thread nD τ).loc main_arg4) : S256.Idx → EReal) := by
  obtain ⟨-, -, -, -, -, -, -, -, e0, e1, -⟩ := idx_facts t
  have hb : (iblk m c 3 t : Vec Ideal S1x256 .f32) = (V m c main_v17 : S1x256.Idx → EReal) := by
    funext y
    unfold iblk
    rw [View.read_apply]
    show V m c main_v17 _ = _
    congr 1
    funext a
    apply Fin.ext
    match a with
    | ⟨0, _⟩ => show win0_3.index t 0 * 1 + 1 * (y 0).val = (y 0).val; rw [e0]; omega
    | ⟨1, _⟩ => show win0_3.index t 1 * 256 + 1 * (y 1).val = (y 1).val; rw [e1]; omega
  rw [hb, Staged.b1_eq, Staged.rowOf_reshape]

/-- The second bias window's one block: its row is b2. -/
theorem b2blk_row (c : Dev nD) (t : Fin cfg0.N) :
    rowOf (iblk m c 5 t : Vec Ideal S1x256 .f32) = (m ((c : Thread nD τ).loc main_arg6) : S256.Idx → EReal) := by
  obtain ⟨-, -, -, -, -, -, -, -, -, -, -, -, e0, e1, -⟩ := idx_facts t
  have hb : (iblk m c 5 t : Vec Ideal S1x256 .f32) = (V m c main_v18 : S1x256.Idx → EReal) := by
    funext y
    unfold iblk
    rw [View.read_apply]
    show V m c main_v18 _ = _
    congr 1
    funext a
    apply Fin.ext
    match a with
    | ⟨0, _⟩ => show win0_5.index t 0 * 1 + 1 * (y 0).val = (y 0).val; rw [e0]; omega
    | ⟨1, _⟩ => show win0_5.index t 1 * 256 + 1 * (y 1).val = (y 1).val; rw [e1]; omega
  rw [hb, Staged.b2_eq, Staged.rowOf_reshape]

/-- The scale window's one block: its row is γ. -/
theorem gblk_row (c : Dev nD) (t : Fin cfg0.N) :
    rowOf (iblk m c 6 t : Vec Ideal S1x256 .f32) = (m ((c : Thread nD τ).loc main_arg7) : S256.Idx → EReal) := by
  obtain ⟨-, -, -, -, -, -, -, -, -, -, -, -, -, -, e0, e1, -⟩ := idx_facts t
  have hb : (iblk m c 6 t : Vec Ideal S1x256 .f32) = (V m c main_v19 : S1x256.Idx → EReal) := by
    funext y
    unfold iblk
    rw [View.read_apply]
    show V m c main_v19 _ = _
    congr 1
    funext a
    apply Fin.ext
    match a with
    | ⟨0, _⟩ => show win0_6.index t 0 * 1 + 1 * (y 0).val = (y 0).val; rw [e0]; omega
    | ⟨1, _⟩ => show win0_6.index t 1 * 256 + 1 * (y 1).val = (y 1).val; rw [e1]; omega
  rw [hb, Staged.gamma_eq, Staged.rowOf_reshape]

/-- The shift window's one block: its row is β. -/
theorem bblk_row (c : Dev nD) (t : Fin cfg0.N) :
    rowOf (iblk m c 7 t : Vec Ideal S1x256 .f32) = (m ((c : Thread nD τ).loc main_arg8) : S256.Idx → EReal) := by
  obtain ⟨-, -, -, -, -, -, -, -, -, -, -, -, -, -, -, -, e0, e1⟩ := idx_facts t
  have hb : (iblk m c 7 t : Vec Ideal S1x256 .f32) = (V m c main_v20 : S1x256.Idx → EReal) := by
    funext y
    unfold iblk
    rw [View.read_apply]
    show V m c main_v20 _ = _
    congr 1
    funext a
    apply Fin.ext
    match a with
    | ⟨0, _⟩ => show win0_7.index t 0 * 1 + 1 * (y 0).val = (y 0).val; rw [e0]; omega
    | ⟨1, _⟩ => show win0_7.index t 1 * 256 + 1 * (y 1).val = (y 1).val; rw [e1]; omega
  rw [hb, Staged.beta_eq, Staged.rowOf_reshape]

/-! ## What a point writes back -/

/-- A tile whose rows are rows p' of (X, Z), with the weights and the four rows as given, stores row p' of the whole layer. -/
theorem stored_in_whole (P0 P1 : Vec Ideal S2000x256 .f32) (P2 : Vec Ideal S256x256 .f32) (P3 : Vec Ideal S1x256 .f32)
    (P4 : Vec Ideal S256x256 .f32) (P5 P6 P7 : Vec Ideal S1x256 .f32) (X Z : Mat 50000 256) (W1 W2 : Mat 256 256)
    (b1 b2 g b : Vct 256) (p : Fin 2000) (q : Fin 256) (p' : Fin 50000)
    (hx : ∀ k : Fin 256, P0 (ix2 p k) = X (ix2 p' k)) (hz : ∀ k : Fin 256, P1 (ix2 p k) = Z (ix2 p' k))
    (h2 : (P2 : Mat 256 256) = W1) (h3 : rowOf P3 = b1) (h4 : (P4 : Mat 256 256) = W2) (h5 : rowOf P5 = b2)
    (h6 : rowOf P6 = g) (h7 : rowOf P7 = b) :
    k0_pay1 (k0_pay4 P0 P1 P2 P3 P4 P5) (k0_pay5 P0 P1 P2 P3 P4 P5) (k0_pay6 (F := Ideal)) P6 P7 (ix2 p q)
      = layer c256 eps X Z W1 b1 W2 b2 g b (ix2 p' q) := by
  subst h2 h3 h4 h5 h6 h7
  rw [Tile.stored_apply]
  exact layer_row c256 eps P0 P1 X Z P2 (rowOf P3) P4 (rowOf P5) (rowOf P6) (rowOf P7) p p' hx hz q

/-- WHAT POINT t WRITES BACK is block t of the whole layer. -/
theorem flushed_eq (c : Dev nD) (t : Fin cfg0.N) :
    (dats m 0 c).flushed 8 t = ((cfg0.win 8).blk t).view.read (Elt Ideal) (result m c) := by
  obtain ⟨-, -, -, -, e0, e1, -⟩ := idx_facts t
  have htl : t.val < 25 := lt_of_lt_of_eq t.isLt N_0
  rw [flushed8]
  unfold out0_8
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  have hemb : ((cfg0.win 8).blk t).view.emb (ix2 p q)
      = (ix2 (⟨t.val * 2000 + p.val, by have := p.isLt; omega⟩ : Fin 50000) q : S50000x256.Idx) := by
    funext a
    apply Fin.ext
    match a with
    | ⟨0, _⟩ => show win0_8.index t 0 * 2000 + 1 * p.val = t.val * 2000 + p.val; rw [e0]; omega
    | ⟨1, _⟩ => show win0_8.index t 1 * 256 + 1 * q.val = q.val; rw [e1]; omega
  show _ = result m c (((cfg0.win 8).blk t).view.emb (ix2 p q))
  rw [hemb]
  exact stored_in_whole (iblk m c 0 t) (iblk m c 1 t) (iblk m c 2 t) (iblk m c 3 t) (iblk m c 4 t) (iblk m c 5 t) (iblk m c 6 t)
    (iblk m c 7 t) (m ((c : Thread nD τ).loc main_arg0)) (V m c main_v16) (m ((c : Thread nD τ).loc main_arg3))
    (m ((c : Thread nD τ).loc main_arg5)) (m ((c : Thread nD τ).loc main_arg4)) (m ((c : Thread nD τ).loc main_arg6))
    (m ((c : Thread nD τ).loc main_arg7)) (m ((c : Thread nD τ).loc main_arg8)) p q ⟨t.val * 2000 + p.val, by have := p.isLt; omega⟩
    (fun k => xblk_apply m c t p k _ rfl) (fun k => zblk_apply m c t p k _ rfl) (w1blk_eq m c t) (b1blk_row m c t) (w2blk_eq m c t)
    (b2blk_row m c t) (gblk_row m c t) (bblk_row m c t)

/-! ## The cover, and the run -/

/-- An index of the result array is in point t's block iff each coordinate is in the block's range. -/
theorem mem_blk (t : Fin cfg0.N) (i : S50000x256.Idx) :
    i ∈ ((cfg0.win 8).blk t).view.set
      ↔ ∀ a : Fin 2, win0_8.index t a * S2000x256.size a ≤ (i a).val ∧ (i a).val < win0_8.index t a * S2000x256.size a + S2000x256.size a := by
  show i ∈ ((View.whole main_v21).slice (win0_8.rect t)).set ↔ _
  rw [View.set_slice_whole, Rect.mem_set_unit]
  exact Iff.rfl

/-- Every row lies in the block of the point t = row / 2000. -/
theorem cover (i : S50000x256.Idx) : ∃ t : Fin cfg0.N, (cfg0.win 8).flush t = true ∧ i ∈ ((cfg0.win 8).blk t).view.set := by
  have hi0 : (i 0).val < 50000 := (i 0).isLt
  have hi1 : (i 1).val < 256 := (i 1).isLt
  have hN : cfg0.N = 25 := N_0
  have hlt : (i 0).val / 2000 < cfg0.N := by rw [hN]; omega
  obtain ⟨-, -, -, -, e0, e1, -⟩ := idx_facts ⟨(i 0).val / 2000, hlt⟩
  refine ⟨⟨(i 0).val / 2000, hlt⟩, flush0_8 _, ?_⟩
  rw [mem_blk]
  intro a
  match a with
  | ⟨0, _⟩ =>
    show win0_8.index ⟨(i 0).val / 2000, hlt⟩ 0 * 2000 ≤ (i 0).val ∧ (i 0).val < win0_8.index ⟨(i 0).val / 2000, hlt⟩ 0 * 2000 + 2000
    rw [e0]
    show (i 0).val / 2000 * 2000 ≤ (i 0).val ∧ (i 0).val < (i 0).val / 2000 * 2000 + 2000
    omega
  | ⟨1, _⟩ =>
    show win0_8.index ⟨(i 0).val / 2000, hlt⟩ 1 * 256 ≤ (i 1).val ∧ (i 1).val < win0_8.index ⟨(i 0).val / 2000, hlt⟩ 1 * 256 + 256
    rw [e1]
    omega

/-- So the result array ends holding the whole layer. -/
theorem final (c : Dev nD) : (dats m 0 c).arrAt 8 cfg0.N = result m c :=
  (dats m 0 c).arrAt_eq_of_cover 8 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Blocks

end
-- ==== Proof.Whole.lean ====
/-
  The reference, read at an entry, on the extended reals.

  After the shared gather / scatter-add stage that produces z (carried here as one unopened array), the reference applies
  two whole matrix products with bias and clamp, adds x, and normalises each row.  Each of its operations reads its operands
  at one entry (or sums over one coordinate), so chaining those readings gives, entry by entry, the layer of `MlpNorm` over
  all 50000 rows.  The only arithmetic used is 0 + s = s for the two row sums' initial value.
-/
import proofs.«134560_j12180527252066_1_alg».proof.Proof.Gen.ReferenceIdeal.Read
import proofs.«134560_j12180527252066_1_alg».proof.Proof.MlpNorm

noncomputable section

namespace Cert.ReferenceIdeal.Whole

open Cert.ReferenceIdeal Cert.ReferenceIdeal.Gen Cert.ReferenceIdeal.Read Idealize.ShloMosaic Idealize.ShloMosaic.ValueIdx
open LibLin MlpNorm

variable (x0 : (⟨S50000x256, .f32⟩ : BufTy).Contents (Elt Ideal)) (x1 : (⟨S2x800000, .i32⟩ : BufTy).Contents (Elt Ideal))
  (x2 : (⟨S800000x256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 x7 x8 : (⟨S256, .f32⟩ : BufTy).Contents (Elt Ideal))

/-- The aggregated features z = x + (scatter-added messages): the shared first stage, never opened. -/
abbrev zArr : Mat 50000 256 := val_main_v16 (F := Ideal) x0 x1 x2

/-! ## The two clamped linear steps and the residual -/

/-- relu(z · W1 + b1), entry by entry. -/
theorem hidden1 : (val_main_v21 (F := Ideal) x0 x1 x2 x3 x4 : Mat 50000 256) = lin true (zArr x0 x1 x2) x3 x4 := by
  funext j
  obtain ⟨p, q, rfl⟩ : ∃ (p : Fin 50000) (q : Fin 256), j = ix2 p q := ⟨j 0, j 1, eq_ix2 j⟩
  have hl : ∀ k : Fin 256, lidx_main_v17 (ix2 p q) k = ix2 p k := fun k => funext fun a => Fin.ext (by
    match a with | ⟨0, _⟩ => rfl | ⟨1, _⟩ => rfl)
  have hr : ∀ k : Fin 256, ridx_main_v17 (ix2 p q) k = ix2 k q := fun k => funext fun a => Fin.ext (by
    match a with | ⟨0, _⟩ => rfl | ⟨1, _⟩ => rfl)
  have hb : idx_main_v18 (idx_main_v19 (ix2 p q)) = ix1 q := funext fun a => Fin.ext (by
    match a with | ⟨0, _⟩ => rfl)
  rw [val_main_v21_apply, val_main_v20_apply, val_main_v17_apply, val_main_v19_apply, val_main_v18_apply,
    val_main_call1_v0_apply, val_main_call1_cst_apply, lin_apply, if_pos rfl]
  simp only [hl, hr, hb]
  show max (_ + _) (Ideal.ofBits .f32 0x00000000#32) = _
  rw [Ideal.ofBits_zero_f32]

/-- relu(h1 · W2 + b2), entry by entry. -/
theorem hidden2 : (val_main_v26 (F := Ideal) x0 x1 x2 x3 x4 x5 x6 : Mat 50000 256)
    = lin true (lin true (zArr x0 x1 x2) x3 x4) x5 x6 := by
  funext j
  obtain ⟨p, q, rfl⟩ : ∃ (p : Fin 50000) (q : Fin 256), j = ix2 p q := ⟨j 0, j 1, eq_ix2 j⟩
  have hl : ∀ k : Fin 256, lidx_main_v22 (ix2 p q) k = ix2 p k := fun k => funext fun a => Fin.ext (by
    match a with | ⟨0, _⟩ => rfl | ⟨1, _⟩ => rfl)
  have hr : ∀ k : Fin 256, ridx_main_v22 (ix2 p q) k = ix2 k q := fun k => funext fun a => Fin.ext (by
    match a with | ⟨0, _⟩ => rfl | ⟨1, _⟩ => rfl)
  have hb : idx_main_v23 (idx_main_v24 (ix2 p q)) = ix1 q := funext fun a => Fin.ext (by
    match a with | ⟨0, _⟩ => rfl)
  rw [val_main_v26_apply, val_main_v25_apply, val_main_v22_apply, val_main_v24_apply, val_main_v23_apply,
    val_main_call2_v0_apply, val_main_call2_cst_apply, hidden1, lin_apply, if_pos rfl]
  simp only [hl, hr, hb]
  show max (_ + _) (Ideal.ofBits .f32 0x00000000#32) = _
  rw [Ideal.ofBits_zero_f32]

/-- r = x + relu(h2). -/
theorem residual : (val_main_v27 (F := Ideal) x0 x1 x2 x3 x4 x5 x6 : Mat 50000 256)
    = resid x0 (zArr x0 x1 x2) x3 x4 x5 x6 := by
  funext j
  rw [val_main_v27_apply, hidden2]
  rfl

/-! ## The row statistics -/

/-- The mean column: the row's sum divided by 256. -/
theorem mean_apply (p : Fin 50000) (u : Fin 1) :
    val_main_v31 (F := Ideal) x0 x1 x2 x3 x4 x5 x6 (ix2 p u) = rowMean c256 (val_main_v27 (F := Ideal) x0 x1 x2 x3 x4 x5 x6) p := by
  have hi : ∀ k : Fin 256, idx_main_v28 (idx_main_v29 (ix2 p u)) k = ix2 p k := fun k => funext fun a => Fin.ext (by
    match a with | ⟨0, _⟩ => rfl | ⟨1, _⟩ => rfl)
  rw [val_main_v31_apply, val_main_v29_apply, val_main_v30_apply, val_main_cst_2_apply, val_main_v28_apply, val_main_cst_1_apply]
  simp only [hi]
  show Ideal.div (Ideal.ofBits .f32 0x00000000#32 + _) c256 = _
  rw [Ideal.ofBits_zero_f32, zero_add]
  rfl

/-- The row centred on its mean (the reference forms it twice, from the same mean column). -/
theorem centred_apply (p : Fin 50000) (q : Fin 256) :
    val_main_v33 (F := Ideal) x0 x1 x2 x3 x4 x5 x6 (ix2 p q)
      = val_main_v27 (F := Ideal) x0 x1 x2 x3 x4 x5 x6 (ix2 p q) - rowMean c256 (val_main_v27 (F := Ideal) x0 x1 x2 x3 x4 x5 x6) p := by
  have hi : idx_main_v32 (ix2 p q) = ix2 p (0 : Fin 1) := funext fun a => Fin.ext (by
    match a with | ⟨0, _⟩ => rfl | ⟨1, _⟩ => rfl)
  rw [val_main_v33_apply, val_main_v32_apply, hi, mean_apply]
  rfl

theorem centred'_apply (p : Fin 50000) (q : Fin 256) :
    val_main_v40 (F := Ideal) x0 x1 x2 x3 x4 x5 x6 (ix2 p q)
      = val_main_v27 (F := Ideal) x0 x1 x2 x3 x4 x5 x6 (ix2 p q) - rowMean c256 (val_main_v27 (F := Ideal) x0 x1 x2 x3 x4 x5 x6) p := by
  have hi : idx_main_v39 (ix2 p q) = ix2 p (0 : Fin 1) := funext fun a => Fin.ext (by
    match a with | ⟨0, _⟩ => rfl | ⟨1, _⟩ => rfl)
  rw [val_main_v40_apply, val_main_v39_apply, hi, mean_apply]
  rfl

/-- The variance column: the sum of the squared centred row divided by 256. -/
theorem var_apply (p : Fin 50000) (u : Fin 1) :
    val_main_v38 (F := Ideal) x0 x1 x2 x3 x4 x5 x6 (ix2 p u) = rowVar c256 (val_main_v27 (F := Ideal) x0 x1 x2 x3 x4 x5 x6) p := by
  have hi : ∀ k : Fin 256, idx_main_v35 (idx_main_v36 (ix2 p u)) k = ix2 p k := fun k => funext fun a => Fin.ext (by
    match a with | ⟨0, _⟩ => rfl | ⟨1, _⟩ => rfl)
  rw [val_main_v38_apply, val_main_v36_apply, val_main_v37_apply, val_main_cst_4_apply, val_main_v35_apply, val_main_cst_3_apply]
  simp only [hi, val_main_v34_apply, centred_apply]
  show Ideal.div (Ideal.ofBits .f32 0x00000000#32 + _) c256 = _
  rw [Ideal.ofBits_zero_f32, zero_add]
  rfl

/-! ## The result -/

/-- THE REFERENCE: its result at row p and column q is the layer over all rows. -/
theorem result_apply (p : Fin 50000) (q : Fin 256) :
    val_main_v51 (F := Ideal) x0 x1 x2 x3 x4 x5 x6 x7 x8 (ix2 p q)
      = layer c256 eps x0 (zArr x0 x1 x2) x3 x4 x5 x6 x7 x8 (ix2 p q) := by
  have hs : idx_main_v44 (ix2 p q) = ix2 p (0 : Fin 1) := funext fun a => Fin.ext (by
    match a with | ⟨0, _⟩ => rfl | ⟨1, _⟩ => rfl)
  have hg : idx_main_v46 (idx_main_v47 (ix2 p q)) = ix1 q := funext fun a => Fin.ext (by
    match a with | ⟨0, _⟩ => rfl)
  have hb : idx_main_v49 (idx_main_v50 (ix2 p q)) = ix1 q := funext fun a => Fin.ext (by
    match a with | ⟨0, _⟩ => rfl)
  rw [val_main_v51_apply, val_main_v48_apply, val_main_v45_apply, val_main_v44_apply, hs, val_main_v43_apply, val_main_v42_apply,
    val_main_v41_apply, val_main_cst_5_apply, var_apply, centred'_apply, val_main_v47_apply, val_main_v46_apply, hg,
    val_main_v50_apply, val_main_v49_apply, hb, residual]
  rfl

end Cert.ReferenceIdeal.Whole

end
-- ==== Proof.lean ====
/-
  The certificate's claims.

  The kernel splits the GINE block as the reference does up to the aggregated features z = x + Σ relu(x_src + e) (gather,
  clamp, scatter-add: the same host operations on the same arguments in both programs), and then fuses the rest — two
  clamped linear layers, the residual and a row normalisation — into one pallas_call over 25 tiles of 2000 rows.  On the
  extended reals the tile's stored block is the layer of `MlpNorm` over the tile's rows (`Tile`), each row of that layer
  depends on the same row of x and z only, so the 25 blocks assemble to the layer over all rows (`Blocks`); the
  reference's operations, read entry by entry, are the same layer (`Whole`); and the two programs' z are one term
  (`Staged.z_eq`).  No precondition is used: both sides perform the same operations in the same order.
  Each program runs to the end with its arguments unchanged: for the two kernel programs this is the frame over the 25
  grid points, for the reference its run with the result dropped.  The idealized kernel is the kernel's own text read on
  the extended reals (no operation was replaced), so the preservation claim is empty.
-/
import proofs.«134560_j12180527252066_1_alg».proof.Defs
import proofs.«134560_j12180527252066_1_alg».proof.Proof.Gen.Kernel
import proofs.«134560_j12180527252066_1_alg».proof.Proof.Gen.Kernel.Skeleton
import proofs.«134560_j12180527252066_1_alg».proof.Proof.Gen.Kernel.Launch
import proofs.«134560_j12180527252066_1_alg».proof.Proof.Gen.Kernel.Points
import proofs.«134560_j12180527252066_1_alg».proof.Proof.Gen.Kernel.Frame
import proofs.«134560_j12180527252066_1_alg».proof.Proof.Gen.KernelIdeal
import proofs.«134560_j12180527252066_1_alg».proof.Proof.Gen.KernelIdeal.Skeleton
import proofs.«134560_j12180527252066_1_alg».proof.Proof.Gen.KernelIdeal.Launch
import proofs.«134560_j12180527252066_1_alg».proof.Proof.Gen.KernelIdeal.Points
import proofs.«134560_j12180527252066_1_alg».proof.Proof.Gen.KernelIdeal.Frame
import proofs.«134560_j12180527252066_1_alg».proof.Proof.Gen.ReferenceIdeal
import proofs.«134560_j12180527252066_1_alg».proof.Proof.Gen.Pre_finite_inputs
import proofs.«134560_j12180527252066_1_alg».proof.Proof.Gen.KernelIdeal.Value
import proofs.«134560_j12180527252066_1_alg».proof.Proof.Gen.ReferenceIdeal.Run
import proofs.«134560_j12180527252066_1_alg».proof.Proof.Gen.ReferenceIdeal.Read
import proofs.«134560_j12180527252066_1_alg».proof.Proof.Blocks
import proofs.«134560_j12180527252066_1_alg».proof.Proof.Whole
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- On arguments that agree, the reference's result is the layer the kernel's result array ends holding. -/
theorem results_agree (m : (ℓ : Loc Cert.KernelIdeal.nD Cert.KernelIdeal.τ Cert.KernelIdeal.sig) → Buf (Elt Ideal) ℓ)
    (c : Dev Cert.KernelIdeal.nD)
    (x0 : (⟨Cert.ReferenceIdeal.S50000x256, .f32⟩ : BufTy).Contents (Elt Ideal))
    (x1 : (⟨Cert.ReferenceIdeal.S2x800000, .i32⟩ : BufTy).Contents (Elt Ideal))
    (x2 : (⟨Cert.ReferenceIdeal.S800000x256, .f32⟩ : BufTy).Contents (Elt Ideal))
    (x3 : (⟨Cert.ReferenceIdeal.S256x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal))
    (x6 x7 x8 : (⟨Cert.ReferenceIdeal.S256, .f32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8)) :
    Cert.ReferenceIdeal.Read.val_main_v51 (F := Ideal) x0 x1 x2 x3 x4 x5 x6 x7 x8 = Cert.KernelIdeal.Blocks.result m c := by
  subst h0 h1 h2 h3 h4 h5 h6 h7 h8
  funext j
  obtain ⟨p, q, rfl⟩ : ∃ (p : Fin 50000) (q : Fin 256), j = ix2 p q := ⟨j 0, j 1, eq_ix2 j⟩
  rw [Cert.ReferenceIdeal.Whole.result_apply]
  show _ = MlpNorm.layer _ _ _ (Cert.KernelIdeal.Gen.V m c Cert.KernelIdeal.main_v16) _ _ _ _ _ _ (ix2 p q)
  rw [Cert.KernelIdeal.Staged.z_eq]

/-- Both idealized programs, run from memories that agree on the arguments, end with the same result array. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v51_eq]
  exact results_agree m c _ _ _ _ _ _ _ _ _ a0 a1 a2 a3 a4 a5 a6 a7 a8

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
